-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Layer.lean ====
/-
  A dense graph-convolution layer as one function of its three argument arrays, and the law that joins the two ways
  of bracketing its two matrix products.

  With features `feat` [10000, 128], adjacency `adj` [10000, 10000] and weight `W` [128, 128], the layer's entry at
  row `r` and column `o` is the larger of zero and a double sum over a neighbour `j` and an input feature `a` of
  `adj (r, j) * feat (j, a) * W (o, a)`. Projecting first and then propagating along the graph computes, for each
  neighbour, the inner sum over `a` and then sums over `j` (`layer`); propagating first and then projecting computes,
  for each feature, the inner sum over `j` and then sums over `a` (`layerPropagateFirst`). The two agree by
  distributivity and by exchanging the two finite sums. On the extended reals distributivity fails at the infinities,
  so the law is stated for arrays all of whose entries are real numbers, and is proved in the reals.
-/
import Idealize.ShloMosaic.Lib.ValueIdx
import Idealize.ShloMosaic.PureOps.Ideal

noncomputable section

namespace Cert.Gcn

open Idealize.ShloMosaic Idealize.ShloMosaic.ValueIdx

abbrev SFeat : Shape := ⟨2, ![10000, 128]⟩
abbrev SAdj : Shape := ⟨2, ![10000, 10000]⟩
abbrev SW : Shape := ⟨2, ![128, 128]⟩

/-- Every entry of an array over the extended reals is a real number. -/
def AllReal {s : Shape} (x : s.Idx → EReal) : Prop := ∀ i, ∃ r : ℝ, x i = (r : EReal)

/-- A finite sum of real numbers, seen in the extended reals, is the sum of the numbers seen there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two bracketings of a row of `A` times a matrix `B` times a column of `C`, for real entries: summing over the
    middle index first or last gives the same extended real. -/
theorem bracket {J K : Type} [Fintype J] [Fintype K] (A : J → ℝ) (B : J → K → ℝ) (C : K → ℝ) :
    ∑ a, (∑ j, (A j : EReal) * (B j a : EReal)) * (C a : EReal)
      = ∑ j, (A j : EReal) * ∑ a, (B j a : EReal) * (C a : EReal) := by
  have hl : ∑ a, (∑ j, (A j : EReal) * (B j a : EReal)) * (C a : EReal) = ((∑ a, (∑ j, A j * B j a) * C a : ℝ) : EReal) := by
    rw [coe_sum]
    refine Finset.sum_congr rfl fun a _ => ?_
    rw [EReal.coe_mul, coe_sum]
    refine congrArg (· * (C a : EReal)) (Finset.sum_congr rfl fun j _ => ?_)
    rw [EReal.coe_mul]
  have hr : ∑ j, (A j : EReal) * ∑ a, (B j a : EReal) * (C a : EReal) = ((∑ j, A j * ∑ a, B j a * C a : ℝ) : EReal) := by
    rw [coe_sum]
    refine Finset.sum_congr rfl fun j _ => ?_
    rw [EReal.coe_mul, coe_sum]
    refine congrArg ((A j : EReal) * ·) (Finset.sum_congr rfl fun a _ => ?_)
    rw [EReal.coe_mul]
  rw [hl, hr]
  refine congrArg _ ?_
  simp only [Finset.sum_mul, Finset.mul_sum]
  rw [Finset.sum_comm]
  refine Finset.sum_congr rfl fun j _ => Finset.sum_congr rfl fun a _ => ?_
  ring

/-- The layer, projecting first: at `(r, o)`, the larger of zero and the sum over neighbours `j` of `adj (r, j)` times
    the projected feature `∑ a, feat (j, a) * W (o, a)`. -/
def layer (feat : FVec Ideal SFeat .f32) (adj : FVec Ideal SAdj .f32) (W : FVec Ideal SW .f32) : FVec Ideal SFeat .f32 :=
  fun i => max (∑ j : Fin 10000, adj (ix2 (i 0) j) * ∑ a : Fin 128, feat (ix2 j a) * W (ix2 (i 1) a))
    (Ideal.ofBits .f32 0x00000000#32)

/-- The layer, propagating first: at `(r, o)`, the larger of zero and the sum over input features `a` of the propagated
    feature `∑ j, adj (r, j) * feat (j, a)` times `W (o, a)`. -/
def layerPropagateFirst (feat : FVec Ideal SFeat .f32) (adj : FVec Ideal SAdj .f32) (W : FVec Ideal SW .f32) :
    FVec Ideal SFeat .f32 :=
  fun i => max (∑ a : Fin 128, (∑ j : Fin 10000, adj (ix2 (i 0) j) * feat (ix2 j a)) * W (ix2 (i 1) a))
    (Ideal.ofBits .f32 0x00000000#32)

/-- For arrays of real numbers the two orders of the layer's products give the same array. -/
theorem layerPropagateFirst_eq_layer (feat : FVec Ideal SFeat .f32) (adj : FVec Ideal SAdj .f32) (W : FVec Ideal SW .f32)
    (hf : AllReal feat) (ha : AllReal adj) (hw : AllReal W) :
    layerPropagateFirst feat adj W = layer feat adj W := by
  choose f hf using hf
  choose g hg using ha
  choose w hw using hw
  funext i
  unfold layerPropagateFirst layer
  refine congrArg (max · _) ?_
  simp only [hf, hg, hw]
  exact bracket (fun j => g (ix2 (i 0) j)) (fun j a => f (ix2 j a)) (fun a => w (ix2 (i 1) a))

end Cert.Gcn

end
-- ==== Proof.FiniteArgs.lean ====
/-
  The precondition read entry by entry: each of the three argument arrays holds real numbers.

  The printed precondition is the conjunction of three tests, one per array: every entry's absolute value lies
  strictly below the word for positive infinity. On the extended reals an absolute value is the larger of a number
  and its negation, and that is below the top element exactly when the number is neither infinity; such a number
  is a real. A test over a whole array is a conjunction over its entries, so it gives the fact at every index.
-/
import proofs.«180552_g25640954757420_cont_8to1_317_12_alg».proof.Pre_finite_inputs
import proofs.«180552_g25640954757420_cont_8to1_317_12_alg».proof.Proof.Layer
import Idealize.ShloMosaic.Lib.ReduceAll
import Idealize.ShloMosaic.Lib.Affine

noncomputable section

namespace Cert.Gcn

open Idealize.ShloMosaic Idealize.ShloMosaic.ValueIdx

/-- The scalar shape has one index. -/
instance : Subsingleton Cert.Pre_finite_inputs.S_.Idx := ⟨fun a b => funext fun d => d.elim0⟩

/-- An extended real whose absolute value lies below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word the precondition compares against denotes the top element. -/
theorem inf_word : Ideal.ofBits .f32 0x7F800000#32 = (⊤ : EReal) := by simp [Ideal.ofBits, Ideal.ieee]

/-- If the conjunction over all entries of "the absolute value is below positive infinity" holds of an array, every
    entry of the array is a real number. -/
theorem allReal_of_all_abs_lt {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (h : Host.reduce IntOp.andi (cmpf .olt (Host.absf x)
          (broadcastInDim s ![] hb (constant (F := Ideal) Cert.Pre_finite_inputs.S_ .f32 0x7F800000#32))) init hr hu ix0 = 1#1) :
    AllReal x := by
  intro i
  have hi := Host.reduce_andi_all _ init hr hu ix0 h i
  simp only [cmpf, Host.absf, broadcastInDim, constant, Ideal.hostAbsf_def, Ideal.ofBits_def] at hi
  have h' : BitVec.ofBool (decide (max (x i) (-(x i)) < Ideal.ofBits .f32 0x7F800000#32)) = 1#1 := hi
  rw [inf_word] at h'
  refine real_of_abs_lt_top _ ?_
  by_contra hn
  rw [decide_eq_false hn] at h'
  exact absurd h' (by decide)

/-- Under the precondition all three argument arrays hold real numbers. -/
theorem args_real [Cert.Pre_finite_inputs.Facts] (feat : FVec Ideal SFeat .f32) (adj : FVec Ideal SAdj .f32)
    (W : FVec Ideal SW .f32) (h : Cert.Pre_finite_inputs.fn (F := Ideal) feat adj W = fun _ => 1#1) :
    AllReal feat ∧ AllReal adj ∧ AllReal W := by
  have h0 := congrFun h ix0
  dsimp only [Cert.Pre_finite_inputs.fn] at h0
  obtain ⟨h12, h3⟩ := IntOp.andi_eq_one.mp h0
  obtain ⟨h1, h2⟩ := IntOp.andi_eq_one.mp h12
  exact ⟨allReal_of_all_abs_lt _ _ _ feat _ h1, allReal_of_all_abs_lt _ _ _ adj _ h2, allReal_of_all_abs_lt _ _ _ W _ h3⟩

end Cert.Gcn

end
-- ==== Proof.RefLayer.lean ====
/-
  The reference computes the layer, projecting first.

  Read one operation at a time, the reference's result at row `r` and column `o` is the larger of zero and the sum
  over neighbours `j` of `adj (r, j)` times the entry `(j, o)` of the projected features; that entry is the sum over
  input features `a` of `feat (j, a)` times the transposed weight at `(a, o)`, which is `W (o, a)`. The index functions
  the stage lemmas compose are, at an index given by its coordinates, the indices with those coordinates.
-/
import proofs.«180552_g25640954757420_cont_8to1_317_12_alg».proof.Proof.Gen.ReferenceIdeal.Read
import proofs.«180552_g25640954757420_cont_8to1_317_12_alg».proof.Proof.Layer

noncomputable section

namespace Cert.Gcn.Ref

open Cert.ReferenceIdeal Cert.ReferenceIdeal.Read Idealize.ShloMosaic Idealize.ShloMosaic.ValueIdx

/-- The adjacency entry the second product reads on its left: row `r`, neighbour `j`. -/
theorem adj_index (r : Fin 10000) (o : Fin 128) (j : Fin 10000) : lidx_main_v2 (ix2 r o) j = ix2 r j :=
  funext fun d => Fin.ext (by match d with | ⟨0, _⟩ => rfl | ⟨1, _⟩ => rfl)

/-- The projected-feature entry the second product reads on its right: neighbour `j`, column `o`. -/
theorem projected_index (r : Fin 10000) (o : Fin 128) (j : Fin 10000) : ridx_main_v2 (ix2 r o) j = ix2 j o :=
  funext fun d => Fin.ext (by match d with | ⟨0, _⟩ => rfl | ⟨1, _⟩ => rfl)

/-- The feature entry the first product reads on its left: neighbour `j`, input feature `a`. -/
theorem feat_index (j : Fin 10000) (o : Fin 128) (a : Fin 128) : lidx_main_v1 (ix2 j o) a = ix2 j a :=
  funext fun d => Fin.ext (by match d with | ⟨0, _⟩ => rfl | ⟨1, _⟩ => rfl)

/-- The transposed-weight entry the first product reads on its right: input feature `a`, column `o`. -/
theorem weightT_index (j : Fin 10000) (o : Fin 128) (a : Fin 128) : ridx_main_v1 (ix2 j o) a = ix2 a o :=
  funext fun d => Fin.ext (by match d with | ⟨0, _⟩ => rfl | ⟨1, _⟩ => rfl)

/-- The transpose reads, at `(a, o)`, the weight at `(o, a)`. -/
theorem weight_index (a : Fin 128) (o : Fin 128) : idx_main_v0 (ix2 a o) = ix2 o a :=
  funext fun d => Fin.ext (by match d with | ⟨0, _⟩ => rfl | ⟨1, _⟩ => rfl)

/-- The reference's last stage, as a function of the three argument arrays, is the layer. -/
theorem result_eq_layer (feat : FVec Ideal Cert.Gcn.SFeat .f32) (adj : FVec Ideal Cert.Gcn.SAdj .f32)
    (W : FVec Ideal Cert.Gcn.SW .f32) :
    val_main_v3 (F := Ideal) feat adj W = Cert.Gcn.layer feat adj W := by
  funext i
  obtain ⟨r, o, rfl⟩ : ∃ (r : Fin 10000) (o : Fin 128), i = ix2 r o := ⟨i 0, i 1, eq_ix2 i⟩
  rw [val_main_v3_apply, val_main_v2_apply, val_main_call0_v0_apply, val_main_call0_cst_apply]
  simp only [val_main_v1_apply, val_main_v0_apply, adj_index, projected_index, feat_index, weightT_index, weight_index,
    Ideal.maximumf_def, Ideal.ofBits_def]
  rfl

end Cert.Gcn.Ref

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.BlockLayer.lean ====
/-
  What one grid point's body stores, read at an entry.

  The body loads a block of 400 adjacency rows, the whole feature array and the whole transposed weight, multiplies the
  adjacency rows by the features, multiplies the result by the transposed weight, and stores the larger of that and
  zero. Each of the two products is into a zero accumulator and contracts the left operand's second axis with the right
  operand's first, so at row `p` of the block and column `o` the stored value is the larger of zero and the sum over
  input features `a` of (the sum over neighbours `j` of `rows (p, j) * feat (j, a)`) times `wT (a, o)`.
-/
import proofs.«180552_g25640954757420_cont_8to1_317_12_alg».proof.Proof.Gen.KernelIdeal.Skeleton
import proofs.«180552_g25640954757420_cont_8to1_317_12_alg».proof.Proof.LibDot2
import Idealize.ShloMosaic.Lib.Pipeline.Value

noncomputable section

namespace Cert.Gcn.Block

open Cert.KernelIdeal Cert.KernelIdeal.Gen Idealize.ShloMosaic Idealize.ShloMosaic.ValueIdx

/-! The first product's dimension numbers: which coordinate of each operand is the output's, which is contracted. -/

theorem propagate_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem propagate_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem propagate_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem propagate_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! The second product's dimension numbers. -/

theorem project_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem project_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem project_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem project_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The propagated features of a block of adjacency rows: entry `(p, a)` is the sum over neighbours. -/
theorem propagate_apply (rows : FVec Ideal S400x10000 .f32) (feat : FVec Ideal S10000x128 .f32) (p : Fin 400) (a : Fin 128) :
    matmul dot_S400x10000_S10000x128_S400x128_1_0_0_1_n_n none rows feat (constant (F := Ideal) S400x128 .f32 0x00000000#32) (ix2 p a)
      = ∑ j : Fin 10000, rows (ix2 p j) * feat (ix2 j a) :=
  Cert.Lib.Dot2.matmul_zero_ix2 dot_S400x10000_S10000x128_S400x128_1_0_0_1_n_n none rfl rfl propagate_lhs_0 propagate_lhs_1 propagate_rhs_0 propagate_rhs_1 rows feat p a

/-- The projection of a block of propagated features: entry `(p, o)` is the sum over input features. -/
theorem project_apply (t : FVec Ideal S400x128 .f32) (wT : FVec Ideal S128x128 .f32) (p : Fin 400) (o : Fin 128) :
    matmul dot_S400x128_S128x128_S400x128_1_0_0_1_n_n none t wT (constant (F := Ideal) S400x128 .f32 0x00000000#32) (ix2 p o)
      = ∑ a : Fin 128, t (ix2 p a) * wT (ix2 a o) :=
  Cert.Lib.Dot2.matmul_zero_ix2 dot_S400x128_S128x128_S400x128_1_0_0_1_n_n none rfl rfl project_lhs_0 project_lhs_1 project_rhs_0 project_rhs_1 t wT p o

/-- The stored block at `(p, o)`: the larger of zero and the projected propagated features. -/
theorem stored_apply (rows : Vec Ideal S400x10000 .f32) (feat : Vec Ideal S10000x128 .f32) (wT : Vec Ideal S128x128 .f32)
    (p : Fin 400) (o : Fin 128) :
    k0_pay1 (F := Ideal) rows feat wT (ix2 p o)
      = max (∑ a : Fin 128, (∑ j : Fin 10000, rows (ix2 p j) * feat (ix2 j a)) * wT (ix2 a o)) (Ideal.ofBits .f32 0x00000000#32) := by
  unfold k0_pay1
  show FloatOps.maximumf (matmul dot_S400x128_S128x128_S400x128_1_0_0_1_n_n none (matmul dot_S400x10000_S10000x128_S400x128_1_0_0_1_n_n none rows feat (constant (F := Ideal) S400x128 .f32 0x00000000#32))
      (shapeCast S128x128 wT shapeCasts_S128x128_S128x128) (constant (F := Ideal) S400x128 .f32 0x00000000#32) (ix2 p o))
    (FloatOps.ofBits (F := Ideal) .f32 0x00000000#32) = _
  rw [shapeCast_self, project_apply]
  simp only [propagate_apply, Ideal.maximumf_def, Ideal.ofBits_def]

end Cert.Gcn.Block

end
-- ==== Proof.ArrayLayer.lean ====
/-
  From what each grid point stores to the whole output array.

  Point `t` of the 25 stages the whole feature array, the whole transposed weight, and rows `400 t` to `400 t + 399` of the
  adjacency, and writes back rows `400 t` to `400 t + 399` of the output. So the block it writes is the restriction to those
  rows of one function of the arrays as the region finds them: at `(r, o)`, the larger of zero and the sum over input
  features `a` of the propagated feature `∑ j, adj (r, j) * feat (j, a)` times the transposed weight at `(a, o)`. The 25 blocks
  tile the 10000 rows (row `r` lies in the block of point `r / 400`), so after the run the output array is that function.
  The transposed weight is what the one operation before the region wrote: at `(a, o)` it is `W (o, a)`.
-/
import proofs.«180552_g25640954757420_cont_8to1_317_12_alg».proof.Proof.Gen.KernelIdeal.Value
import proofs.«180552_g25640954757420_cont_8to1_317_12_alg».proof.Proof.BlockLayer
import proofs.«180552_g25640954757420_cont_8to1_317_12_alg».proof.Proof.Layer
import Idealize.ShloMosaic.Lib.Pipeline.Value
import Idealize.ShloMosaic.Lib.ValueLayout
import Idealize.ShloMosaic.Lib.StableHlo.Run

noncomputable section

namespace Cert.Gcn.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer with the weight already transposed: at `(r, o)`, the larger of zero and the sum over input features `a` of the
    propagated feature times `wT (a, o)`. -/
def viaTransposed (feat : S10000x128.Idx → EReal) (adj : S10000x10000.Idx → EReal) (wT : S128x128.Idx → EReal) :
    S10000x128.Idx → EReal :=
  fun i => max (∑ a : Fin 128, (∑ j : Fin 10000, adj (ix2 (i 0) j) * feat (ix2 j a)) * wT (ix2 a (i 1)))
    (Ideal.ofBits .f32 0x00000000#32)

/-- With the transpose of `W` for the transposed weight it is the layer, propagating first. -/
theorem viaTransposed_transpose (feat : S10000x128.Idx → EReal) (adj : S10000x10000.Idx → EReal) (W : S128x128.Idx → EReal) :
    viaTransposed feat adj (transpose S128x128 [1, 0] W transposes_S128x128_S128x128_1_0)
      = Cert.Gcn.layerPropagateFirst feat adj W := by
  funext i
  obtain ⟨r, o, rfl⟩ : ∃ (r : Fin 10000) (o : Fin 128), i = ix2 r o := ⟨i 0, i 1, eq_ix2 i⟩
  show max (∑ a : Fin 128, (∑ j : Fin 10000, adj (ix2 r j) * feat (ix2 j a))
        * transpose S128x128 [1, 0] W transposes_S128x128_S128x128_1_0 (ix2 a o)) (Ideal.ofBits .f32 0x00000000#32)
      = max (∑ a : Fin 128, (∑ j : Fin 10000, adj (ix2 r j) * feat (ix2 j a)) * W (ix2 o a)) (Ideal.ofBits .f32 0x00000000#32)
  refine congrArg (max · _) (Finset.sum_congr rfl fun a _ => ?_)
  exact congrArg ((∑ j : Fin 10000, adj (ix2 r j) * feat (ix2 j a)) * ·)
    (transpose_ix2_apply W transposes_S128x128_S128x128_1_0 a o)

/-- What one point stores at `(p, o)`, when its three loaded blocks are read off arrays `feat`, `adj`, `wT`: the layer with
    the transposed weight at the array index `i` whose row is the block's row `p` and whose column is `o`. -/
theorem stored_eq (rows : Vec Ideal S400x10000 .f32) (featB : Vec Ideal S10000x128 .f32) (wTB : Vec Ideal S128x128 .f32)
    (feat : S10000x128.Idx → EReal) (adj : S10000x10000.Idx → EReal) (wT : S128x128.Idx → EReal)
    (p : Fin 400) (o : Fin 128) (i : S10000x128.Idx)
    (hrows : ∀ j : Fin 10000, rows (ix2 p j) = adj (ix2 (i 0) j))
    (hfeat : ∀ (j : Fin 10000) (a : Fin 128), featB (ix2 j a) = feat (ix2 j a))
    (hw : ∀ a : Fin 128, wTB (ix2 a o) = wT (ix2 a (i 1))) :
    k0_pay1 (F := Ideal) rows featB wTB (ix2 p o) = viaTransposed feat adj wT i := by
  rw [Cert.Gcn.Block.stored_apply]
  unfold viaTransposed
  simp only [hrows, hfeat, hw]

/-- The transposed weight as the region finds it: the transpose of the weight argument. -/
theorem weightT_eq (c : Dev nD) :
    (V m c main_v0 : S128x128.Idx → EReal)
      = transpose S128x128 [1, 0] (m ((c : Thread nD τ).loc main_arg2)) transposes_S128x128_S128x128_1_0 := by
  dsimp only [Gen.V, Gen.hostOps0]
  after_results

/-- The printed index maps, decided over the 25 points: the features and the transposed weight are staged whole, the
    adjacency rows move with the output rows, and the output's row-block index stays below 25. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every row block is some point's. -/
theorem idx_onto : ∀ q : Fin 25, ∃ t : Fin cfg0.N, win0_3.index t = ![q.val, 0] :=
  (by decide +kernel : ∀ q : Fin 25, ∃ t : Fin grid0.N, win0_3.index t = ![q.val, 0])

/-- What point `t` writes back is block `t` of the layer with the transposed weight, of the arrays as the region finds them. -/
theorem flushed_eq (c : Dev nD) (t : Fin cfg0.N) :
    (dats m 0 c).flushed 3 t
      = ((cfg0.win 3).blk t).view.read (Elt Ideal) (viaTransposed (V m c main_arg0) (V m c main_arg1) (V m c main_v0)) := by
  rw [Cert.KernelIdeal.Value.flushed3]
  unfold out0_3
  rw [View.canon_unit_zero origin]
  simp only [View.ld_unit_zero (S := S400x10000) origin, View.ld_unit_zero (S := S10000x128) origin,
    View.ld_unit_zero (S := S128x128) origin]
  obtain ⟨e00, e01, e10, e11, e20, e21, e31, e3b⟩ := idx_facts t
  funext y
  obtain ⟨p, o, rfl⟩ : ∃ (p : Fin 400) (o : Fin 128), y = ix2 p o := ⟨y 0, y 1, eq_ix2 y⟩
  refine stored_eq (iblk m c 2 t) (iblk m c 0 t) (iblk m c 1 t) (V m c main_arg0) (V m c main_arg1) (V m c main_v0) p o
    (((cfg0.win 3).blk t).view.emb (ix2 p o)) (fun j => ?_) (fun j a => ?_) (fun a => ?_)
  · show V m c main_arg1 (((cfg0.win 2).blk t).view.emb (ix2 p j))
        = V m c main_arg1 (ix2 (((cfg0.win 3).blk t).view.emb (ix2 p o) 0) j)
    refine congrArg _ (funext fun d => Fin.ext ?_)
    match d with
    | ⟨0, _⟩ => show win0_2.index t (0 : Fin 2) * 400 + 1 * p.val = win0_3.index t (0 : Fin 2) * 400 + 1 * p.val; omega
    | ⟨1, _⟩ => show win0_2.index t (1 : Fin 2) * 10000 + 1 * j.val = j.val; omega
  · show V m c main_arg0 (((cfg0.win 0).blk t).view.emb (ix2 j a)) = V m c main_arg0 (ix2 j a)
    refine congrArg _ (funext fun d => Fin.ext ?_)
    match d with
    | ⟨0, _⟩ => show win0_0.index t (0 : Fin 2) * 10000 + 1 * j.val = j.val; omega
    | ⟨1, _⟩ => show win0_0.index t (1 : Fin 2) * 128 + 1 * a.val = a.val; omega
  · show V m c main_v0 (((cfg0.win 1).blk t).view.emb (ix2 a o))
        = V m c main_v0 (ix2 a (((cfg0.win 3).blk t).view.emb (ix2 p o) 1))
    refine congrArg _ (funext fun d => Fin.ext ?_)
    match d with
    | ⟨0, _⟩ => show win0_1.index t (0 : Fin 2) * 128 + 1 * a.val = a.val; omega
    | ⟨1, _⟩ => show win0_1.index t (1 : Fin 2) * 128 + 1 * o.val = win0_3.index t (1 : Fin 2) * 128 + 1 * o.val; omega

/-- An index of the output array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v1).slice (win0_3.rect t)).set ↔ _
  rw [View.set_slice_whole, Rect.mem_set_unit]
  exact Iff.rfl

/-- Every index of the output array lies in some point's block: row `r` in the block of point `r / 400`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- After the run the output array is the layer, propagating first, of the three argument arrays. -/
theorem result (c : Dev nD) :
    (dats m 0 c).arrAt 3 cfg0.N
      = Cert.Gcn.layerPropagateFirst (m ((c : Thread nD τ).loc main_arg0)) (m ((c : Thread nD τ).loc main_arg1))
          (m ((c : Thread nD τ).loc main_arg2)) := by
  rw [(dats m 0 c).arrAt_eq_of_cover 3 (viaTransposed (V m c main_arg0) (V m c main_arg1) (V m c main_v0))
    (fun t _ => flushed_eq m c t) cover, V_main_arg0, V_main_arg1, weightT_eq]
  exact viaTransposed_transpose _ _ _

/-- Every weakly fair execution of the kernel's program ends with the output array at the layer, propagating first, of
    the arguments, and the arguments unchanged. -/
theorem run : θ_run defs (onTc (τ := τ) (main (F := Ideal))) ⟨m, fun _ => 0, ρ⟩ fun r => ∀ c : Dev nD,
      r.2.mem ((c : Thread nD τ).loc main_v1)
        = Cert.Gcn.layerPropagateFirst (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Cert.KernelIdeal.Value.run_blocks m ρ)

end Cert.Gcn.Array

end
-- ==== Proof.lean ====
/-
  A dense graph-convolution layer: the kernel and the reference compute the same array on the extended reals.

  The reference projects the features by the transposed weight and then propagates them along the adjacency:
  its result at `(r, o)` is the larger of zero and `∑ j, adj (r, j) * ∑ a, feat (j, a) * W (o, a)`. The kernel, one block of
  400 rows at a time, propagates first and projects afterwards: `∑ a, (∑ j, adj (r, j) * feat (j, a)) * W (o, a)`. The two
  differ by distributivity and an exchange of two finite sums. Distributivity fails at the infinities of the extended
  reals, so this is where the precondition is used: every entry of the three argument arrays is finite, hence a real
  number, and the identity is proved in the reals (Proof/Layer.lean). Proof/FiniteArgs.lean reads the precondition entry by
  entry; Proof/RefLayer.lean reads the reference's result one operation at a time; Proof/BlockLayer.lean reads what one
  grid point stores (two matrix products into zero accumulators and a maximum); Proof/ArrayLayer.lean puts the 25 blocks
  together into the output array. The idealization rewrote no operation, so the kernel's idealized program is its own
  text read over the extended reals and there is nothing to preserve.
-/
import proofs.«180552_g25640954757420_cont_8to1_317_12_alg».proof.Defs
import proofs.«180552_g25640954757420_cont_8to1_317_12_alg».proof.Proof.Gen.Kernel
import proofs.«180552_g25640954757420_cont_8to1_317_12_alg».proof.Proof.Gen.Kernel.Skeleton
import proofs.«180552_g25640954757420_cont_8to1_317_12_alg».proof.Proof.Gen.Kernel.Launch
import proofs.«180552_g25640954757420_cont_8to1_317_12_alg».proof.Proof.Gen.Kernel.Points
import proofs.«180552_g25640954757420_cont_8to1_317_12_alg».proof.Proof.Gen.Kernel.Frame
import proofs.«180552_g25640954757420_cont_8to1_317_12_alg».proof.Proof.Gen.KernelIdeal
import proofs.«180552_g25640954757420_cont_8to1_317_12_alg».proof.Proof.Gen.KernelIdeal.Skeleton
import proofs.«180552_g25640954757420_cont_8to1_317_12_alg».proof.Proof.Gen.KernelIdeal.Launch
import proofs.«180552_g25640954757420_cont_8to1_317_12_alg».proof.Proof.Gen.KernelIdeal.Points
import proofs.«180552_g25640954757420_cont_8to1_317_12_alg».proof.Proof.Gen.KernelIdeal.Frame
import proofs.«180552_g25640954757420_cont_8to1_317_12_alg».proof.Proof.Gen.ReferenceIdeal
import proofs.«180552_g25640954757420_cont_8to1_317_12_alg».proof.Proof.Gen.Pre_finite_inputs
import proofs.«180552_g25640954757420_cont_8to1_317_12_alg».proof.Proof.Gen.KernelIdeal.Value
import proofs.«180552_g25640954757420_cont_8to1_317_12_alg».proof.Proof.Gen.ReferenceIdeal.Run
import proofs.«180552_g25640954757420_cont_8to1_317_12_alg».proof.Proof.Gen.ReferenceIdeal.Read
import proofs.«180552_g25640954757420_cont_8to1_317_12_alg».proof.Proof.Layer
import proofs.«180552_g25640954757420_cont_8to1_317_12_alg».proof.Proof.FiniteArgs
import proofs.«180552_g25640954757420_cont_8to1_317_12_alg».proof.Proof.RefLayer
import proofs.«180552_g25640954757420_cont_8to1_317_12_alg».proof.Proof.ArrayLayer
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments unchanged. -/
theorem frame_kernel : Cert.frame_Kernel := fun m ρ _ => Cert.Kernel.Gen.frame m ρ

/-- So does the kernel's program read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on finite arguments both programs end with the layer of the arguments in their result: the
    kernel by propagating first, which for real entries is the layer; the reference by projecting first, which is the
    layer as defined. -/
theorem algebraic : Cert.algebraic_KernelIdeal_ReferenceIdeal := by
  intro m ρ m' ρ' hpre hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.Gcn.Array.run m ρ)
    obtain ⟨hf, ha, hw⟩ := Cert.Gcn.args_real _ _ _ (hpre c)
    exact Cert.Gcn.layerPropagateFirst_eq_layer _ _ _ hf ha hw
  · refine (θ_run Cert.ReferenceIdeal.defs _ _).mono (fun r h c => ⟨?_, (h c).2⟩)
      (Cert.ReferenceIdeal.Value.run (F := Ideal) m' ρ')
    rw [(h c).1, Cert.ReferenceIdeal.Read.val_main_v3_eq, Cert.Gcn.Ref.result_eq_layer, (hagree c).1, (hagree c).2.1,
      (hagree c).2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
